-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S65536x1024 : Shape := ⟨2, ![65536, 1024]⟩
abbrev S65536 : Shape := ⟨1, ![65536]⟩
abbrev S16384 : Shape := ⟨1, ![16384]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S65536 : S_.BroadcastsInDim S65536 (![] : Fin 0 → Fin S65536.rank)
  reducesTo_S65536_S_d0 : S65536.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  let main_c_6 : IVec S_ 32 := constantI S_ 32 65536#32
  let main_v18 : IVec S16384 32 := broadcastInDim S16384 ![] bcast_S_S16384 main_c_6
  let main_v19 : IVec S16384 1 := cmpi .slt main_arg3 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v17 main_v20
  main_v21

def fn {F : FTy → Type} [FloatOps F] (main_arg0 : FVec F S2048x1024 .f32) (main_arg1 : FVec F S65536x1024 .f32) (main_arg2 : FVec F S65536 .f32) (main_arg3 : IVec S16384 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_c_4 : IVec S_ 32 := constantI S_ 32 4294901760#32
  let main_v14 : IVec S16384 32 := broadcastInDim S16384 ![] bcast_S_S16384 main_c_4
  let main_v15 : IVec S16384 1 := cmpi .sge main_arg3 main_v14
  let main_c_5 : IVec S_ 1 := constantI S_ 1 1#1
  fn_part1 (F := F) main_arg3 main_v13 main_v15 main_c_5
-- ==== Kernel.lean ====
abbrev S2048x1024 : Shape := ⟨2, ![2048, 1024]⟩
abbrev S65536x1024 : Shape := ⟨2, ![65536, 1024]⟩
abbrev S65536 : Shape := ⟨1, ![65536]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x1024 : Shape := ⟨2, ![16384, 1024]⟩
abbrev S1x16384 : Shape := ⟨2, ![1, 16384]⟩
abbrev S2048x16384 : Shape := ⟨2, ![2048, 16384]⟩
abbrev S512x1024 : Shape := ⟨2, ![512, 1024]⟩
abbrev S1x512 : Shape := ⟨2, ![1, 512]⟩
abbrev S2048x512 : Shape := ⟨2, ![2048, 512]⟩

abbrev nBuf : Space → Nat
  | .hbm => 53
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S65536x1024, .f32⟩
  | .hbm, ⟨2, _⟩ => ⟨S65536, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x1024, .f32⟩
  | .hbm, ⟨23, _⟩ => ⟨S16384x1024, .i1⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S2048x1024, .bf16⟩
  | .hbm, ⟨51, _⟩ => ⟨S1x16384, .f32⟩
  | .hbm, ⟨52, _⟩ => ⟨S2048x16384, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_c_0 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c_1 : Ref sig .tc := ⟨.hbm, 12, rfl⟩
abbrev main_call0_call0_c_2 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_call0_c_3 : Ref sig .tc := ⟨.hbm, 20, rfl⟩
abbrev main_call0_call0_v12 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst : Ref sig .tc := ⟨.hbm, 24, rfl⟩
abbrev main_call0_call0_v15 : Ref sig .tc := ⟨.hbm, 25, rfl⟩
abbrev main_call0_v0 : Ref sig .tc := ⟨.hbm, 26, rfl⟩
abbrev main_call0_v1 : Ref sig .tc := ⟨.hbm, 27, rfl⟩
abbrev main_call0_call1_c : Ref sig .tc := ⟨.hbm, 28, rfl⟩
abbrev main_call0_call1_v0 : Ref sig .tc := ⟨.hbm, 29, rfl⟩
abbrev main_call0_call1_v1 : Ref sig .tc := ⟨.hbm, 30, rfl⟩
abbrev main_call0_call1_c_0 : Ref sig .tc := ⟨.hbm, 31, rfl⟩
abbrev main_call0_call1_v2 : Ref sig .tc := ⟨.hbm, 32, rfl⟩
abbrev main_call0_call1_v3 : Ref sig .tc := ⟨.hbm, 33, rfl⟩
abbrev main_call0_call1_v4 : Ref sig .tc := ⟨.hbm, 34, rfl⟩
abbrev main_call0_call1_v5 : Ref sig .tc := ⟨.hbm, 35, rfl⟩
abbrev main_call0_call1_c_1 : Ref sig .tc := ⟨.hbm, 36, rfl⟩
abbrev main_call0_call1_c_2 : Ref sig .tc := ⟨.hbm, 37, rfl⟩
abbrev main_call0_call1_v6 : Ref sig .tc := ⟨.hbm, 38, rfl⟩
abbrev main_call0_call1_v7 : Ref sig .tc := ⟨.hbm, 39, rfl⟩
abbrev main_call0_call1_v8 : Ref sig .tc := ⟨.hbm, 40, rfl⟩
abbrev main_call0_call1_v9 : Ref sig .tc := ⟨.hbm, 41, rfl⟩
abbrev main_call0_call1_v10 : Ref sig .tc := ⟨.hbm, 42, rfl⟩
abbrev main_call0_call1_v11 : Ref sig .tc := ⟨.hbm, 43, rfl⟩
abbrev main_call0_call1_c_3 : Ref sig .tc := ⟨.hbm, 44, rfl⟩
abbrev main_call0_call1_v12 : Ref sig .tc := ⟨.hbm, 45, rfl⟩
abbrev main_call0_call1_v13 : Ref sig .tc := ⟨.hbm, 46, rfl⟩
abbrev main_call0_call1_cst : Ref sig .tc := ⟨.hbm, 47, rfl⟩
abbrev main_call0_call1_v14 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v0 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1024_0 : S16384.BroadcastsInDim S16384x1024 (![0] : Fin 1 → Fin S16384x1024.rank)
  bcast_S_S16384x1024 : S_.BroadcastsInDim S16384x1024 (![] : Fin 0 → Fin S16384x1024.rank)
  bitsLt_bf16_f32 : FTy.bits .bf16 < FTy.bits .f32
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  gather_S65536x1024_S16384x1_S16384x1024_1_0_n_n_0_1_11024_wf : GatherDims.WF S65536x1024 S16384x1 S16384x1024 [1] [0] [] [0] [] 1 ![1, 1024]
  gather_S65536_S16384x1_S16384_n_0_n_n_0_1_1_wf : GatherDims.WF S65536 S16384x1 S16384 [] [0] [] [0] [] 1 ![1]
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .bf16 = 32 ∨ (Rect.block (s := S2048x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .bf16 = 32 ∨ (Rect.block (s := S16384x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x16384.size a
  hwx0_3 : ∀ i : grid0.Coords, EltTy.bits .f32 = 32 ∨ (Rect.block (s := S2048x16384) S2048x512.size (cc0_transform_3 i) (hinb0_3 i)).WholeWords (EltTy.packing .f32)

variable [Facts₀]

def gather_S65536x1024_S16384x1_S16384x1024_1_0_n_n_0_1_11024 : GatherDims S65536x1024 S16384x1 S16384x1024 where
  offsetDims := [1]
  collapsedSliceDims := [0]
  operandBatchingDims := []
  startIndicesBatchingDims := []
  startIndexMap := [0]
  indexVectorDim := 1
  sliceSizes := ![1, 1024]
  wf := gather_S65536x1024_S16384x1_S16384x1024_1_0_n_n_0_1_11024_wf
def gather_S65536_S16384x1_S16384_n_0_n_n_0_1_1 : GatherDims S65536 S16384x1 S16384 where
  offsetDims := []
  collapsedSliceDims := [0]
  operandBatchingDims := []
  startIndicesBatchingDims := []
  startIndexMap := [0]
  indexVectorDim := 1
  sliceSizes := ![1]
  wf := gather_S65536_S16384x1_S16384_n_0_n_n_0_1_1_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_call0_v3) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S65536x1024 : Shape := ⟨2, ![65536, 1024]⟩
abbrev S65536 : Shape := ⟨1, ![65536]⟩
abbrev S16384 : Shape := ⟨1, ![16384]⟩
abbrev S_ : Shape := ⟨0, ![]⟩
abbrev S16384x1 : Shape := ⟨2, ![16384, 1]⟩
abbrev S16384x1024 : Shape := ⟨2, ![16384, 1024]⟩
abbrev S2048x16384 : Shape := ⟨2, ![2048, 16384]⟩
abbrev S1x16384 : Shape := ⟨2, ![1, 16384]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S65536x1024, .f32⟩
  | .hbm, ⟨2, _⟩ => ⟨S65536, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x1024, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384, .f32⟩
  | .hbm, ⟨22, _⟩ => ⟨S2048x16384, .f32⟩
  | .hbm, ⟨23, _⟩ => ⟨S1x16384, .f32⟩
  | .hbm, ⟨24, _⟩ => ⟨S2048x16384, .f32⟩
  | .hbm, ⟨25, _⟩ => ⟨S2048x16384, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  gather_S65536x1024_S16384x1_S16384x1024_1_0_n_n_0_1_11024_wf : GatherDims.WF S65536x1024 S16384x1 S16384x1024 [1] [0] [] [0] [] 1 ![1, 1024]
  gather_S65536_S16384x1_S16384_n_0_n_n_0_1_1_wf : GatherDims.WF S65536 S16384x1 S16384 [] [0] [] [0] [] 1 ![1]
  dot_S2048x1024_S16384x1024_S2048x16384_1_1_0_0_n_n_wf : DotDims.WF S2048x1024 S16384x1024 S2048x16384 [1] [1] [0] [0] [] []

variable [Facts₀]

def gather_S65536x1024_S16384x1_S16384x1024_1_0_n_n_0_1_11024 : GatherDims S65536x1024 S16384x1 S16384x1024 where
  offsetDims := [1]
  collapsedSliceDims := [0]
  operandBatchingDims := []
  startIndicesBatchingDims := []
  startIndexMap := [0]
  indexVectorDim := 1
  sliceSizes := ![1, 1024]
  wf := gather_S65536x1024_S16384x1_S16384x1024_1_0_n_n_0_1_11024_wf
def gather_S65536_S16384x1_S16384_n_0_n_n_0_1_1 : GatherDims S65536 S16384x1 S16384 where
  offsetDims := []
  collapsedSliceDims := [0]
  operandBatchingDims := []
  startIndicesBatchingDims := []
  startIndexMap := [0]
  indexVectorDim := 1
  sliceSizes := ![1]
  wf := gather_S65536_S16384x1_S16384_n_0_n_n_0_1_1_wf
def dot_S2048x1024_S16384x1024_S2048x16384_1_1_0_0_n_n : DotDims S2048x1024 S16384x1024 S2048x16384 where
  lhsContracting := [1]
  rhsContracting := [1]
  lhsNonContracting := [0]
  rhsNonContracting := [0]
  lhsBatch := []
  rhsBatch := []
  wf := dot_S2048x1024_S16384x1024_S2048x16384_1_1_0_0_n_n_wf

class Facts : Prop extends Facts₀ where

variable [Facts]
-- ==== Proof.HostStages.lean ====
/-
  What the program computes from its arguments before the region, as pure functions.
  From the index vector ids : [16384]:
    · idxCol ids : [16384, 1], the wrapped index column — each word stepped up by 65536 when negative, as array
      indexing counts a negative index from the end of an axis of extent 65536;
    · inBounds ids : [16384], the bounds mask — bit s says 0 ≤ wrapped word s ≤ 65535;
    · takenRows w ids : [16384, 1024] — row s is the weight row gathered at wrapped word s where bit s is set, the
      fill word's value elsewhere; takenBias b ids : [16384] the same for the bias.
-/
import proofs.«423076_j77068893160002_3_alg».proof.Proof.Gen.KernelIdeal

noncomputable section

namespace Cert.KernelIdeal.Staged

open Cert.KernelIdeal Cert.KernelIdeal.Gen Idealize.ShloMosaic

variable {F : FTy → Type} [FloatOps F]

/-- The wrapped index words as a column: a negative word plus 65536, a nonnegative word itself. -/
def idxCol (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 65536#32))) ids)

/-- Bit s: the wrapped word s lies in [0, 65535]. -/
def inBounds (ids : IVec S16384 32) : IVec S16384 1 :=
  Host.reduce IntOp.andi
    (andi (cmpi .sge (idxCol ids) (broadcastInDim S16384x1 ![] bcast_S_S16384x1 (constantI S_ 32 0#32)))
      (cmpi .sle (idxCol ids) (broadcastInDim S16384x1 ![0, 1] bcast_S1x1_S16384x1_0_1
        (broadcastInDim S1x1 ![1] bcast_S1_S1x1_1 (constantI S1 32 65535#32)))))
    (constantI S_ 1 1#1) reducesTo_S16384x1_S16384_d1 h_S_

/-- The weight rows taken at the wrapped indices, the fill word's value where the index is out of bounds. -/
def takenRows (w : FVec F S65536x1024 .f32) (ids : IVec S16384 32) : FVec F S16384x1024 .f32 :=
  select (broadcastInDim S16384x1024 ![0] bcast_S16384_S16384x1024_0 (inBounds ids))
    (Host.gather gather_S65536x1024_S16384x1_S16384x1024_1_0_n_n_0_1_11024 w (idxCol ids))
    (broadcastInDim S16384x1024 ![] bcast_S_S16384x1024 (constant S_ .f32 0x7FC00000#32))

/-- The bias entries taken at the wrapped indices, the fill word's value where the index is out of bounds. -/
def takenBias (b : FVec F S65536 .f32) (ids : IVec S16384 32) : FVec F S16384 .f32 :=
  select (inBounds ids)
    (Host.gather gather_S65536_S16384x1_S16384_n_0_n_n_0_1_1 b (idxCol ids))
    (broadcastInDim S16384 ![] bcast_S_S16384 (constant S_ .f32 0x7FC00000#32))

end Cert.KernelIdeal.Staged

end
-- ==== Proof.StagedArrays.lean ====
/-
  The three arrays the region stages, as functions of the program's arguments (x, weight, bias, ids): window 0 stages
  x narrowed to bf16, window 1 the taken rows narrowed to bf16, window 2 the taken bias laid out as a [1, 16384] row
  (HostStages has the stages' definitions). At the ideal instance narrowing is the identity, so the first two are x
  and the taken rows themselves. Each is read off the program's operations before the region, in order: every
  operation's result buffer holds its function of its operands' buffers, every other buffer what it held.
-/
import proofs.«423076_j77068893160002_3_alg».proof.Proof.Gen.KernelIdeal.Frame
import proofs.«423076_j77068893160002_3_alg».proof.Proof.HostStages
import Idealize.ShloMosaic.Lib.StableHlo.Run
import Idealize.ShloMosaic.PureOps.Ideal

noncomputable section

namespace Cert.KernelIdeal.Staged

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Window 0's array: x (narrowing is the identity on extended reals). -/
theorem staged_x (c : Dev nD) :
    (V m c main_call0_v3 : S2048x1024.Idx → EReal) = (m ((c : Thread nD τ).loc main_arg0) : S2048x1024.Idx → EReal) := by
  dsimp only [Gen.V, Gen.hostOps0]
  after_results_simp
  rfl

/-- Narrowing to bf16 is the identity on extended reals. -/
theorem narrow_id {s : Shape} (X : FVec Ideal s .f32) (h : FTy.bf16.bits < FTy.f32.bits) :
    (truncf (F := Ideal) .bf16 X h : s.Idx → EReal) = X := rfl

set_option maxHeartbeats 4000000 in
/-- Window 1's array as the program forms it: the taken rows, narrowed. -/
theorem staged_rows_narrowed (c : Dev nD) :
    (V m c main_call0_v1 : S16384x1024.Idx → EReal)
      = truncf (F := Ideal) .bf16
          (takenRows (F := Ideal) (m ((c : Thread nD τ).loc main_arg1)) (m ((c : Thread nD τ).loc main_arg3))) bitsLt_bf16_f32 := by
  dsimp only [Gen.V, Gen.hostOps0]
  after_results_simp
  simp only [TRef.toBuf, TRef.ofBuf, cast_eq]
  rfl

/-- Window 1's array: the taken rows. -/
theorem staged_rows (c : Dev nD) :
    (V m c main_call0_v1 : S16384x1024.Idx → EReal)
      = takenRows (F := Ideal) (m ((c : Thread nD τ).loc main_arg1)) (m ((c : Thread nD τ).loc main_arg3)) :=
  (staged_rows_narrowed m c).trans (narrow_id _ _)

set_option maxHeartbeats 4000000 in
/-- Window 2's array: the taken bias laid out as one row. -/
theorem staged_bias (c : Dev nD) :
    (V m c main_call0_v4 : S1x16384.Idx → EReal)
      = shapeCast S1x16384 (takenBias (F := Ideal) (m ((c : Thread nD τ).loc main_arg2)) (m ((c : Thread nD τ).loc main_arg3)))
          shapeCasts_S16384_S1x16384 := by
  dsimp only [Gen.V, Gen.hostOps0]
  after_results_simp
  simp only [TRef.toBuf, TRef.ofBuf, cast_eq]
  rfl

end Cert.KernelIdeal.Staged

end
-- ==== Proof.WrappedIndex.lean ====
/-
  A row index into an axis of extent 65536, taken the way array indexing takes it: a negative word counts from the
  end (it steps up by 65536), a nonnegative one is used as it is. For a word v with -65536 ≤ v < 65536, read signed,
  the wrapped word lies in [0, 65535]: for v < 0 it is v + 65536 ∈ [0, 65535] (no 32-bit wrap-around: the sum is
  far below 2^31), for v ≥ 0 it is v itself. So the two-sided range test on the wrapped word comes out 1.
-/
import Idealize.ShloMosaic.Lib.Affine

namespace Cert.WrappedIndex

open Idealize.ShloMosaic

/-- The wrapped index word: `v + 65536` when `v` is negative, `v` otherwise. -/
def wrap (v : BitVec 32) : BitVec 32 :=
  Scalar.select (IntOp.cmpi .slt v 0#32) (IntOp.addi v 65536#32) v

/-- For -65536 ≤ v < 65536 the wrapped word passes the test 0 ≤ · ≤ 65535. -/
theorem wrap_in_range (v : BitVec 32) (hlo : IntOp.cmpi .sge v 4294901760#32 = 1#1)
    (hhi : IntOp.cmpi .slt v 65536#32 = 1#1) :
    IntOp.andi (IntOp.cmpi .sge (wrap v) 0#32) (IntOp.cmpi .sle (wrap v) 65535#32) = 1#1 := by
  have e0 : (0#32 : BitVec 32).toInt = 0 := by decide
  have e1 : (4294901760#32 : BitVec 32).toInt = -65536 := by decide
  have e2 : (65536#32 : BitVec 32).toInt = 65536 := by decide
  have e3 : (65535#32 : BitVec 32).toInt = 65535 := by decide
  rw [IntOp.cmpi_sge, e1] at hlo
  rw [IntOp.cmpi_slt, e2] at hhi
  rw [IntOp.andi_eq_one, IntOp.cmpi_sge, IntOp.cmpi_sle, e0, e3]
  unfold wrap Scalar.select
  by_cases hneg : v.toInt < 0
  · have hc : IntOp.cmpi .slt v 0#32 = (1 : BitVec 1) := IntOp.cmpi_slt.2 (by rw [e0]; exact hneg)
    have hs : (IntOp.addi v 65536#32).toInt = v.toInt + 65536 := by
      rw [IntOp.addi, BitVec.toInt_add, e2]
      exact Int.bmod_eq_of_le (by omega) (by omega)
    rw [if_pos hc, hs]
    omega
  · have hc : ¬IntOp.cmpi .slt v 0#32 = (1 : BitVec 1) := fun h => hneg (by have := IntOp.cmpi_slt.1 h; rwa [e0] at this)
    rw [if_neg hc]
    omega

end Cert.WrappedIndex
-- ==== Proof.LibAndReduce.lean ====
/-
  An and-reduction of i1 words that are all 1, from the initial value 1, is 1 at every result index: the converse of
  the library's reading of an all-ones result (Lib/ReduceAll.lean: a result of 1 had 1 at every operand index that
  reduces into it). It is what shows a bounds mask built as `reduce and` of comparison bits to be all ones once each
  comparison is known to hold. General in the shapes, the reduced axes and the initial value's shape.
-/
import Idealize.ShloMosaic.Lib.ReduceAll

namespace Cert.Lib.AndReduce

open Idealize.ShloMosaic

/-- A left fold by `and` from 1 over words that are all 1 is 1. -/
theorem foldl_andi_of_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    exact foldl_andi_of_ones f l _ (IntOp.andi_eq_one.2 ⟨hi, h a (List.mem_cons_self ..)⟩)
      (fun n hn => h n (List.mem_cons_of_mem _ hn))

/-- A `stablehlo.reduce` by `and` whose initial value is 1 and whose operand is 1 everywhere is 1 at every result
    index `j`. -/
theorem reduce_andi_of_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_ones x _ _ hinit (fun i _ => hx i)

end Cert.Lib.AndReduce
-- ==== Proof.InBounds.lean ====
/-
  When every index word lies in [-65536, 65536) the bounds mask is all ones, so the fill is never selected: the taken
  rows are the gathered rows and the taken bias the gathered bias.
  Read at position s, the wrapped column holds wrap (ids s); the two comparison operands are the splats 0 and 65535;
  the mask's bit s is the and-reduction, from 1, of the one test 0 ≤ wrap (ids s) ≤ 65535, which the range of ids s
  makes 1 (WrappedIndex.wrap_in_range; the reduction by LibAndReduce).
-/
import proofs.«423076_j77068893160002_3_alg».proof.Proof.HostStages
import proofs.«423076_j77068893160002_3_alg».proof.Proof.WrappedIndex
import proofs.«423076_j77068893160002_3_alg».proof.Proof.LibAndReduce
import Idealize.ShloMosaic.Lib.ValueIdx
import Idealize.ShloMosaic.Lib.Pipeline.Value
import Idealize.ShloMosaic.Lib.StableHlo.Predicate

noncomputable section

namespace Cert.KernelIdeal.Staged

open Cert.KernelIdeal Cert.KernelIdeal.Gen Idealize.ShloMosaic Idealize.ShloMosaic.ValueIdx
open Idealize.ShloMosaic.StableHlo.Predicate (bcast_scalar)

variable {F : FTy → Type} [FloatOps F]

/-- The wrapped column at row s holds the wrapped word of ids s. -/
theorem idxCol_apply (ids : IVec S16384 32) (i : S16384x1.Idx) :
    idxCol ids i = Cert.WrappedIndex.wrap (ids (ix1 (i 0))) := by
  unfold idxCol
  rw [broadcastInDim_apply _ bcast_S16384_S16384x1_0 _ i (ix1 (i 0)) (fun a => match a with
    | ⟨0, _⟩ => by show (i 0).val = if (16384 : Nat) = 1 then 0 else (i 0).val; rw [if_neg (by decide)])]
  show Scalar.select (IntOp.cmpi .slt (ids (ix1 (i 0))) (broadcastInDim S16384 ![] bcast_S_S16384 (constantI S_ 32 0#32) (ix1 (i 0))))
      (IntOp.addi (ids (ix1 (i 0))) (broadcastInDim S16384 ![] bcast_S_S16384 (constantI S_ 32 65536#32) (ix1 (i 0)))) (ids (ix1 (i 0))) = _
  rw [bcast_scalar bcast_S_S16384 h_S_, bcast_scalar bcast_S_S16384 h_S_]
  rfl

/-- Every index word in [-65536, 65536): every bit of the bounds mask is 1. -/
theorem inBounds_eq_one (ids : IVec S16384 32)
    (hlo : ∀ s : S16384.Idx, IntOp.cmpi .sge (ids s) 4294901760#32 = 1#1)
    (hhi : ∀ s : S16384.Idx, IntOp.cmpi .slt (ids s) 65536#32 = 1#1) (j : S16384.Idx) :
    inBounds ids j = 1#1 := by
  unfold inBounds
  refine Cert.Lib.AndReduce.reduce_andi_of_ones _ _ _ _ j rfl (fun i => ?_)
  show IntOp.andi (IntOp.cmpi .sge (idxCol ids i) (broadcastInDim S16384x1 ![] bcast_S_S16384x1 (constantI S_ 32 0#32) i))
      (IntOp.cmpi .sle (idxCol ids i) (broadcastInDim S16384x1 ![0, 1] bcast_S1x1_S16384x1_0_1
        (broadcastInDim S1x1 ![1] bcast_S1_S1x1_1 (constantI S1 32 65535#32)) i)) = 1#1
  rw [idxCol_apply, bcast_scalar bcast_S_S16384x1 h_S_]
  exact Cert.WrappedIndex.wrap_in_range _ (hlo _) (hhi _)

/-- Then the taken rows are the gathered rows … -/
theorem takenRows_eq (w : FVec F S65536x1024 .f32) (ids : IVec S16384 32)
    (hlo : ∀ s : S16384.Idx, IntOp.cmpi .sge (ids s) 4294901760#32 = 1#1)
    (hhi : ∀ s : S16384.Idx, IntOp.cmpi .slt (ids s) 65536#32 = 1#1) :
    takenRows w ids = Host.gather gather_S65536x1024_S16384x1_S16384x1024_1_0_n_n_0_1_11024 w (idxCol ids) := by
  funext i
  unfold takenRows
  rw [select_apply, broadcastInDim_apply _ bcast_S16384_S16384x1024_0 _ i (ix1 (i 0)) (fun a => match a with
    | ⟨0, _⟩ => by show (i 0).val = if (16384 : Nat) = 1 then 0 else (i 0).val; rw [if_neg (by decide)]),
    inBounds_eq_one ids hlo hhi]
  rfl

/-- … and the taken bias the gathered bias. -/
theorem takenBias_eq (b : FVec F S65536 .f32) (ids : IVec S16384 32)
    (hlo : ∀ s : S16384.Idx, IntOp.cmpi .sge (ids s) 4294901760#32 = 1#1)
    (hhi : ∀ s : S16384.Idx, IntOp.cmpi .slt (ids s) 65536#32 = 1#1) :
    takenBias b ids = Host.gather gather_S65536_S16384x1_S16384_n_0_n_n_0_1_1 b (idxCol ids) := by
  funext i
  unfold takenBias
  rw [select_apply, inBounds_eq_one ids hlo hhi]
  rfl

end Cert.KernelIdeal.Staged

end
-- ==== Proof.BlockProduct.lean ====
/-
  One grid point's arithmetic, read at an index. The body multiplies the resident x block a : [2048, 1024] by the
  point's weight block b : [512, 1024], contracting the second axis of each (so b enters as its transpose), into a
  zero accumulator, and adds the point's bias row r : [1, 512] to every row. At output index (p, q):
      (∑ k < 1024, a (p, k) · b (q, k)) + r (0, q).
  The contraction's operand indices at output (p, q) and contraction coordinate k are (p, k) on the left and (q, k)
  on the right; the zero accumulator contributes nothing; the broadcast reads the row's one line at column q.
-/
import proofs.«423076_j77068893160002_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's row coordinate is the output's row. -/
theorem lhs_axis0 (i : S2048x512.Idx) (q : dot_S2048x1024_S512x1024_S2048x512_1_1_0_0_n_n.contr.Idx) :
    (dot_S2048x1024_S512x1024_S2048x512_1_1_0_0_n_n.lhsIdx i q 0).val = (i 0).val := by
  unfold DotDims.lhsIdx
  rw [dif_neg (show ¬(0 : Fin S2048x1024.rank) ∈ dot_S2048x1024_S512x1024_S2048x512_1_1_0_0_n_n.lhsBatch by decide), dif_pos (show (0 : Fin S2048x1024.rank) ∈ dot_S2048x1024_S512x1024_S2048x512_1_1_0_0_n_n.lhsNonContracting by decide)]
  rfl
/-- The left operand's column coordinate is the contraction coordinate. -/
theorem lhs_axis1 (i : S2048x512.Idx) (q : dot_S2048x1024_S512x1024_S2048x512_1_1_0_0_n_n.contr.Idx) :
    (dot_S2048x1024_S512x1024_S2048x512_1_1_0_0_n_n.lhsIdx i q 1).val = (q ⟨0, by decide⟩).val :=
  dot_S2048x1024_S512x1024_S2048x512_1_1_0_0_n_n.lhsIdx_val_of_single rfl i q
/-- The right operand's row coordinate is the output's column: the right operand enters transposed. -/
theorem rhs_axis0 (i : S2048x512.Idx) (q : dot_S2048x1024_S512x1024_S2048x512_1_1_0_0_n_n.contr.Idx) :
    (dot_S2048x1024_S512x1024_S2048x512_1_1_0_0_n_n.rhsIdx i q 0).val = (i 1).val := by
  unfold DotDims.rhsIdx
  rw [dif_neg (show ¬(0 : Fin S512x1024.rank) ∈ dot_S2048x1024_S512x1024_S2048x512_1_1_0_0_n_n.rhsBatch by decide), dif_pos (show (0 : Fin S512x1024.rank) ∈ dot_S2048x1024_S512x1024_S2048x512_1_1_0_0_n_n.rhsNonContracting by decide)]
  rfl
/-- The right operand's column coordinate is the contraction coordinate. -/
theorem rhs_axis1 (i : S2048x512.Idx) (q : dot_S2048x1024_S512x1024_S2048x512_1_1_0_0_n_n.contr.Idx) :
    (dot_S2048x1024_S512x1024_S2048x512_1_1_0_0_n_n.rhsIdx i q 1).val = (q ⟨0, by decide⟩).val :=
  dot_S2048x1024_S512x1024_S2048x512_1_1_0_0_n_n.rhsIdx_val_of_single rfl i q

/-- The block product into the zero accumulator at (p, q): the inner product of row p of a with row q of b. -/
theorem product_apply (a : FVec Ideal S2048x1024 .bf16) (b : FVec Ideal S512x1024 .bf16) (p : Fin 2048) (q : Fin 512) :
    matmul dot_S2048x1024_S512x1024_S2048x512_1_1_0_0_n_n none a b (constant (F := Ideal) S2048x512 .f32 0x00000000#32) (ix2 p q)
      = ∑ k : Fin 1024, a (ix2 p k) * b (ix2 q k) := by
  simp only [matmul]
  rw [Ideal.matmul_constant_zero_apply, ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p q) ((contrEquiv1 dot_S2048x1024_S512x1024_S2048x512_1_1_0_0_n_n 1024 rfl rfl).symm k) = ix2 p k := funext fun d => Fin.ext (by
    match d with
    | ⟨0, _⟩ => exact lhs_axis0 _ _
    | ⟨1, _⟩ => exact (lhs_axis1 _ _).trans hk)
  have er : dot_S2048x1024_S512x1024_S2048x512_1_1_0_0_n_n.rhsIdx (ix2 p q) ((contrEquiv1 dot_S2048x1024_S512x1024_S2048x512_1_1_0_0_n_n 1024 rfl rfl).symm k) = ix2 q k := funext fun d => Fin.ext (by
    match d with
    | ⟨0, _⟩ => exact rhs_axis0 _ _
    | ⟨1, _⟩ => exact (rhs_axis1 _ _).trans hk)
  rw [el, er]

/-- The bias row broadcast over the 2048 rows reads, at (p, q), the row's entry at column q. -/
theorem row_broadcast_apply (r : FVec Ideal S1x512 .f32) (p : Fin 2048) (q : Fin 512) :
    broadcastTo S2048x512 r broadcasts_S1x512_S2048x512 (ix2 p q) = r (ix2 0 q) :=
  broadcastTo_apply r broadcasts_S1x512_S2048x512 (ix2 p q) (ix2 0 q) (fun d => by
    match d with
    | ⟨0, _⟩ => rfl
    | ⟨1, _⟩ => rfl)

/-- What the body stores at (p, q), from the three loaded blocks. -/
theorem payload_apply (a : Vec Ideal S2048x1024 .bf16) (b : Vec Ideal S512x1024 .bf16) (r : Vec Ideal S1x512 .f32)
    (p : Fin 2048) (q : Fin 512) :
    k0_pay1 (F := Ideal) a b r (ix2 p q) = (∑ k : Fin 1024, a (ix2 p k) * b (ix2 q k)) + r (ix2 0 q) := by
  unfold k0_pay1
  rw [shapeCast_self, shapeCast_self, shapeCast_self, addf_apply, product_apply, row_broadcast_apply]

end Cert.KernelIdeal.BlockProduct

end
-- ==== Proof.OutputBlocks.lean ====
/-
  From the grid's 32 write-backs to the whole output array. Write xs : [2048, 1024], ws : [16384, 1024], bs : [1, 16384]
  for the three arrays the region stages. Point t (t < 32) is called with all of xs, rows 512 t … 512 t + 511 of ws and
  columns 512 t … 512 t + 511 of bs, and writes back columns 512 t … 512 t + 511 of the output: block index times
  block extent plus the coordinate inside the block, axis by axis. What it writes at local (p, q) is
      (∑ k, xs (p, k) · ws (512 t + q, k)) + bs (0, 512 t + q),
  which is the one whole-array function
      whole xs ws bs (n, s) = (∑ k, xs (n, k) · ws (s, k)) + bs (0, s)
  read through the point's block. Column s lies in the block of point s / 512, so the 32 blocks cover the array and it
  ends holding `whole` everywhere.
-/
import proofs.«423076_j77068893160002_3_alg».proof.Proof.Gen.KernelIdeal.Value
import proofs.«423076_j77068893160002_3_alg».proof.Proof.BlockProduct
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The output as one function of the three staged arrays. -/
def whole (xs : S2048x1024.Idx → EReal) (ws : S16384x1024.Idx → EReal) (bs : S1x16384.Idx → EReal) :
    S2048x16384.Idx → EReal :=
  fun i => (∑ k : Fin 1024, xs (ix2 (i 0) k) * ws (ix2 (i 1) k)) + bs (ix2 0 (i 1))

/-- One point's payload is `whole` at the block's place in the array: stated over blocks a, b, r that are known to
    be the staged arrays' rows and columns of point number tv, and an array index i sitting at local index y. -/
theorem point_eq (xs : S2048x1024.Idx → EReal) (ws : S16384x1024.Idx → EReal) (bs : S1x16384.Idx → EReal)
    (a : Vec Ideal S2048x1024 .bf16) (b : Vec Ideal S512x1024 .bf16) (r : Vec Ideal S1x512 .f32) (tv : Nat)
    (ha : ∀ (p : Fin 2048) (k : Fin 1024), a (ix2 p k) = xs (ix2 p k))
    (hb : ∀ (q : Fin 512) (k : Fin 1024) (s : Fin 16384), s.val = tv * 512 + q.val → b (ix2 q k) = ws (ix2 s k))
    (hr : ∀ (q : Fin 512) (s : Fin 16384), s.val = tv * 512 + q.val → r (ix2 0 q) = bs (ix2 0 s))
    (y : S2048x512.Idx) (i : S2048x16384.Idx) (hi0 : (i 0).val = (y 0).val) (hi1 : (i 1).val = tv * 512 + (y 1).val) :
    k0_pay1 (F := Ideal) a b r y = whole xs ws bs i := by
  obtain ⟨p, q, rfl⟩ : ∃ (p : Fin 2048) (q : Fin 512), y = ix2 p q := ⟨y 0, y 1, eq_ix2 y⟩
  rw [BlockProduct.payload_apply]
  unfold whole
  have e0 : i 0 = p := Fin.ext hi0
  rw [e0, hr q (i 1) hi1]
  exact congrArg (· + bs (ix2 0 (i 1))) (Finset.sum_congr rfl fun k _ => by rw [ha p k, hb q k (i 1) hi1])

variable (m : (ℓ : Loc nD τ sig) → Buf (Elt Ideal) ℓ) (ρ : Dev nD → PrngReg)

theorem hz : (![0, 0] : Fin 2 → Nat) = fun _ => 0 := funext fun a => by fin_cases a <;> rfl

/-- The three staged arrays, named at their literal types. -/
abbrev xArr (c : Dev nD) : S2048x1024.Idx → EReal := V m c main_call0_v3
abbrev wArr (c : Dev nD) : S16384x1024.Idx → EReal := V m c main_call0_v1
abbrev bArr (c : Dev nD) : S1x16384.Idx → EReal := V m c main_call0_v4

/-- The printed index maps over the grid: x stays at block (0, 0); the weight rows' block index is the point; the
    bias columns' and the output columns' block index is the point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What point t writes back is block t of `whole` of the staged arrays. -/
theorem flushed_eq (c : Dev nD) (t : Fin cfg0.N) :
    (dats m 0 c).flushed 3 t = ((cfg0.win 3).blk t).view.read (Elt Ideal) (whole (xArr m c) (wArr m c) (bArr m c)) := by
  rw [Value.flushed3]
  unfold out0_3
  rw [View.canon_unit_zero hz]
  simp only [View.ld_unit_zero (S := S2048x1024) hz, View.ld_unit_zero (S := S512x1024) hz, View.ld_unit_zero (S := S1x512) hz]
  obtain ⟨e00, e01, e10, e11, e20, e21, e30, e31⟩ := idx_facts t
  funext j
  show k0_pay1 (F := Ideal) (iblk m c 0 t) (iblk m c 1 t) (iblk m c 2 t) j
    = whole (xArr m c) (wArr m c) (bArr m c) (((cfg0.win 3).blk t).view.emb j)
  refine point_eq (xArr m c) (wArr m c) (bArr m c) (iblk m c 0 t) (iblk m c 1 t) (iblk m c 2 t) t.val ?_ ?_ ?_ j
    (((cfg0.win 3).blk t).view.emb j) ?_ ?_
  · intro p k
    show V m c main_call0_v3 (((cfg0.win 0).blk t).view.emb (ix2 p k)) = V m c main_call0_v3 (ix2 p k)
    refine congrArg _ (funext fun d => Fin.ext ?_)
    match d with
    | ⟨0, _⟩ => show win0_0.index t (0 : Fin 2) * 2048 + 1 * p.val = p.val; omega
    | ⟨1, _⟩ => show win0_0.index t (1 : Fin 2) * 1024 + 1 * k.val = k.val; omega
  · intro q k s hs
    show V m c main_call0_v1 (((cfg0.win 1).blk t).view.emb (ix2 q k)) = V m c main_call0_v1 (ix2 s k)
    refine congrArg _ (funext fun d => Fin.ext ?_)
    match d with
    | ⟨0, _⟩ => show win0_1.index t (0 : Fin 2) * 512 + 1 * q.val = s.val; omega
    | ⟨1, _⟩ => show win0_1.index t (1 : Fin 2) * 1024 + 1 * k.val = k.val; omega
  · intro q s hs
    show V m c main_call0_v4 (((cfg0.win 2).blk t).view.emb (ix2 0 q)) = V m c main_call0_v4 (ix2 0 s)
    refine congrArg _ (funext fun d => Fin.ext ?_)
    match d with
    | ⟨0, _⟩ => show win0_2.index t (0 : Fin 2) * 1 + 1 * 0 = 0; omega
    | ⟨1, _⟩ => show win0_2.index t (1 : Fin 2) * 512 + 1 * q.val = s.val; omega
  · show win0_3.index t (0 : Fin 2) * 2048 + 1 * (j 0).val = (j 0).val; omega
  · show win0_3.index t (1 : Fin 2) * 512 + 1 * (j 1).val = t.val * 512 + (j 1).val; omega

/-- An array index is in point t's block iff each coordinate is in the block's range on its axis. -/
theorem mem_blk (t : Fin cfg0.N) (i : S2048x16384.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v0).slice (win0_3.rect t)).set ↔ _
  rw [View.set_slice_whole, Rect.mem_set_unit]
  exact Iff.rfl

/-- Every column lies in the block of the point numbered column / 512. -/
theorem cover (i : S2048x16384.Idx) : ∃ t : Fin cfg0.N, (cfg0.win 3).flush t = true ∧ i ∈ ((cfg0.win 3).blk t).view.set := by
  have h0 : (i 0).val < 2048 := (i 0).isLt
  have h1 : (i 1).val < 16384 := (i 1).isLt
  have hN : cfg0.N = 32 := N_0
  let t : Fin cfg0.N := ⟨(i 1).val / 512, by rw [hN]; omega⟩
  have ht : t.val = (i 1).val / 512 := rfl
  obtain ⟨-, -, -, -, -, -, e30, e31⟩ := idx_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The output array after the run is `whole` of the staged arrays. -/
theorem final (c : Dev nD) : (dats m 0 c).arrAt 3 cfg0.N = whole (xArr m c) (wArr m c) (bArr m c) :=
  (dats m 0 c).arrAt_eq_of_cover 3 (whole (xArr m c) (wArr m c) (bArr m c)) (fun t _ => flushed_eq m c t) cover

/-- The kernel's run, read: the result at `whole` of the staged arrays, the arguments unchanged. -/
theorem run : θ_run defs (onTc (τ := τ) (main (F := Ideal))) ⟨m, fun _ => 0, ρ⟩ fun r => ∀ c : Dev nD,
      r.2.mem ((c : Thread nD τ).loc main_v0) = whole (xArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.SelectedLogits.lean ====
/-
  The function both programs compute. x is [2048, 1024]; wsel is [16384, 1024], the weight rows picked out by the
  index vector, one row per selected neuron; bsel is [16384], the bias entries picked out the same way. Entry (n, s)
  of the result is the inner product of row n of x with selected row s, plus selected bias s:
      logits x wsel bsel (n, s) = (∑ k < 1024, x (n, k) · wsel (s, k)) + bsel s
  on the extended reals. Nothing here needs the summands finite: only the sum's order and grouping differ between
  the two programs, and addition on the extended reals is commutative and associative.
-/
import Idealize.ShloMosaic.PureOps.Ideal
import Idealize.ShloMosaic.Lib.ValueIdx

noncomputable section

open scoped BigOperators

namespace Cert.SelectedLogits

open Idealize.ShloMosaic Idealize.ShloMosaic.ValueIdx

/-- Row n of x against selected row s, plus selected bias s. -/
def logits (x : FVec Ideal ⟨2, ![2048, 1024]⟩ .f32) (wsel : FVec Ideal ⟨2, ![16384, 1024]⟩ .f32)
    (bsel : FVec Ideal ⟨1, ![16384]⟩ .f32) : FVec Ideal ⟨2, ![2048, 16384]⟩ .f32 :=
  fun i => (∑ k : Fin 1024, x (ix2 (i 0) k) * wsel (ix2 (i 1) k)) + bsel (ix1 (i 1))

theorem logits_apply (x : FVec Ideal ⟨2, ![2048, 1024]⟩ .f32) (wsel : FVec Ideal ⟨2, ![16384, 1024]⟩ .f32)
    (bsel : FVec Ideal ⟨1, ![16384]⟩ .f32) (n : Fin 2048) (s : Fin 16384) :
    logits x wsel bsel (ix2 n s) = (∑ k : Fin 1024, x (ix2 n k) * wsel (ix2 s k)) + bsel (ix1 s) := rfl

end Cert.SelectedLogits

end
-- ==== Proof.ReferenceLogits.lean ====
/-
  The reference, read at an index: its result is `logits` of x, the gathered weight rows and the gathered bias.
  The last stage adds, at (n, s), the contraction ∑ k, x (n, k) · rows (s, k) — both operands contracted along their
  second axis — and the bias broadcast first to a [1, 16384] row and then down the 2048 rows, which reads the
  gathered bias at s.
-/
import proofs.«423076_j77068893160002_3_alg».proof.Proof.Gen.ReferenceIdeal.Read
import proofs.«423076_j77068893160002_3_alg».proof.Proof.SelectedLogits

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result stage is `logits` of x, the gathered rows and the gathered bias. -/
theorem result_eq (x0 : FVec Ideal S2048x1024 .f32) (x1 : FVec Ideal S65536x1024 .f32) (x2 : FVec Ideal S65536 .f32)
    (x3 : IVec S16384 32) :
    val_main_v17 (F := Ideal) x0 x1 x2 x3
      = Cert.SelectedLogits.logits x0 (val_main_v6 (F := Ideal) x1 x3) (val_main_v13 (F := Ideal) x2 x3) := by
  funext i
  have el : ∀ k : Fin 1024, lidx_main_v14 i k = ix2 (i 0) k := fun k => funext fun a => Fin.ext (by
    match a with
    | ⟨0, _⟩ => rfl
    | ⟨1, _⟩ => rfl)
  have er : ∀ k : Fin 1024, ridx_main_v14 i k = ix2 (i 1) k := fun k => funext fun a => Fin.ext (by
    match a with
    | ⟨0, _⟩ => rfl
    | ⟨1, _⟩ => rfl)
  have eb : idx_main_v15 (idx_main_v16 i) = ix1 (i 1) := funext fun a => Fin.ext (by
    match a with
    | ⟨0, _⟩ => rfl)
  rw [val_main_v17_apply, val_main_v14_apply, val_main_v16_apply, val_main_v15_apply, eb]
  simp only [el, er]
  rfl

end Cert.ReferenceIdeal.RefValue

end
-- ==== Proof.IndexRange.lean ====
/-
  The precondition, read back. It is the conjunction of five all-reductions: the three float arguments finite, every
  index word ≥ -65536, every index word < 65536 (signed). From the last two: each index word lies in [-65536, 65536).
  An all-reduction that came out 1 had a 1 at every position; a position of a comparison against a splat compares the
  word there with the splat's value.
-/
import proofs.«423076_j77068893160002_3_alg».proof.Pre_finite_inputs
import Idealize.ShloMosaic.Lib.ReduceAll
import Idealize.ShloMosaic.Lib.StableHlo.Predicate
import Idealize.ShloMosaic.Lib.ValueIdx

noncomputable section

namespace Cert.Pre_finite_inputs.Range

open Cert.Pre_finite_inputs Cert.Pre_finite_inputs.Facts Idealize.ShloMosaic Idealize.ShloMosaic.ValueIdx
open Idealize.ShloMosaic.StableHlo.Predicate (bcast_scalar)

instance : Subsingleton S_.Idx := ⟨fun a b => funext fun d => d.elim0⟩

variable {F : FTy → Type} [FloatOps F] [Facts]

/-- Under the precondition every index word is ≥ -65536 and < 65536, read signed. -/
theorem ids_range (x0 : FVec F S2048x1024 .f32) (x1 : FVec F S65536x1024 .f32) (x2 : FVec F S65536 .f32)
    (ids : IVec S16384 32) (h : fn (F := F) x0 x1 x2 ids = fun _ => 1#1) :
    (∀ s : S16384.Idx, IntOp.cmpi .sge (ids s) 4294901760#32 = 1#1)
      ∧ (∀ s : S16384.Idx, IntOp.cmpi .slt (ids s) 65536#32 = 1#1) := by
  have h0 := congrFun h ix0
  dsimp only [fn, fn_part1] at h0
  obtain ⟨h1, hhi⟩ := IntOp.andi_eq_one.1 h0
  obtain ⟨-, hlo⟩ := IntOp.andi_eq_one.1 h1
  refine ⟨fun s => ?_, fun s => ?_⟩
  · have e := Host.reduce_andi_all _ _ reducesTo_S16384_S_d0 h_S_ ix0 hlo s
    have e' : IntOp.cmpi .sge (ids s) (broadcastInDim S16384 ![] bcast_S_S16384 (constantI S_ 32 4294901760#32) s) = 1#1 := e
    rwa [bcast_scalar bcast_S_S16384 h_S_] at e'
  · have e := Host.reduce_andi_all _ _ reducesTo_S16384_S_d0 h_S_ ix0 hhi s
    have e' : IntOp.cmpi .slt (ids s) (broadcastInDim S16384 ![] bcast_S_S16384 (constantI S_ 32 65536#32) s) = 1#1 := e
    rwa [bcast_scalar bcast_S_S16384 h_S_] at e'

end Cert.Pre_finite_inputs.Range

end
-- ==== Proof.Claims.lean ====
/-
  The two programs compute one function. Write rows = the weight rows gathered at the wrapped indices and
  sel = the bias entries gathered at the wrapped indices (the same gather operations, at the same wrapped index
  column, in both programs). Then both results are
      logits x rows sel (n, s) = (∑ k, x (n, k) · rows (s, k)) + sel s.
  Kernel side: its result is `whole` of the three staged arrays (OutputBlocks); the staged arrays are x, the taken
  rows and the taken bias as a row (StagedArrays); under the precondition every index word lies in [-65536, 65536)
  (IndexRange), so the bounds mask is all ones and taken = gathered (InBounds); the row layout reads sel at s.
  Reference side: its run's term is `logits` of x and its own two gathers (ReferenceLogits), which are the same terms.
  The sums on the two sides run over the same index set in the same form, so no law of the extended reals beyond
  rewriting equal terms is used, and finiteness of the float arguments is never opened.
-/
import proofs.«423076_j77068893160002_3_alg».proof.Defs
import proofs.«423076_j77068893160002_3_alg».proof.Proof.Gen.Kernel.Frame
import proofs.«423076_j77068893160002_3_alg».proof.Proof.Gen.Pre_finite_inputs
import proofs.«423076_j77068893160002_3_alg».proof.Proof.StagedArrays
import proofs.«423076_j77068893160002_3_alg».proof.Proof.InBounds
import proofs.«423076_j77068893160002_3_alg».proof.Proof.OutputBlocks
import proofs.«423076_j77068893160002_3_alg».proof.Proof.ReferenceLogits
import proofs.«423076_j77068893160002_3_alg».proof.Proof.IndexRange

noncomputable section

open scoped BigOperators

open Idealize.ShloMosaic Idealize.ShloMosaic.TcCoe Idealize.SL.Sem Idealize.ShloMosaic.ValueIdx

namespace Cert.KernelIdeal.Result

open Cert.KernelIdeal Cert.KernelIdeal.Gen Cert.KernelIdeal.Staged Cert.KernelIdeal.Blocks

/-- A vector laid out as a one-row matrix reads, at (0, s), the vector at s. -/
theorem row_apply (g : S16384.Idx → EReal) (s : Fin 16384) :
    shapeCast S1x16384 g shapeCasts_S16384_S1x16384 (ix2 0 s) = g (ix1 s) :=
  (shapeCast_addUnit_apply ![16384] g shapeCasts_S16384_S1x16384 (ix2 0 s)).trans
    (congrArg g (funext fun a => by match a with | ⟨0, _⟩ => rfl))

/-- The gathered weight rows and the gathered bias, at the wrapped indices. -/
abbrev rows (w : FVec Ideal S65536x1024 .f32) (ids : IVec S16384 32) : FVec Ideal S16384x1024 .f32 :=
  Host.gather gather_S65536x1024_S16384x1_S16384x1024_1_0_n_n_0_1_11024 w (idxCol ids)
abbrev sel (b : FVec Ideal S65536 .f32) (ids : IVec S16384 32) : FVec Ideal S16384 .f32 :=
  Host.gather gather_S65536_S16384x1_S16384_n_0_n_n_0_1_1 b (idxCol ids)

variable (m : (ℓ : Loc nD τ sig) → Buf (Elt Ideal) ℓ)

/-- Under the precondition the kernel's result is `logits` of x, the gathered rows and the gathered bias. -/
theorem whole_eq_logits (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    whole (xArr m c) (wArr m c) (bArr m c)
      = Cert.SelectedLogits.logits (m ((c : Thread nD τ).loc main_arg0))
          (rows (m ((c : Thread nD τ).loc main_arg1)) (m ((c : Thread nD τ).loc main_arg3)))
          (sel (m ((c : Thread nD τ).loc main_arg2)) (m ((c : Thread nD τ).loc main_arg3))) := by
  obtain ⟨hlo, hhi⟩ := Cert.Pre_finite_inputs.Range.ids_range _ _ _ _ hpre
  have ex : xArr m c = (m ((c : Thread nD τ).loc main_arg0) : S2048x1024.Idx → EReal) := staged_x m c
  have ew : wArr m c = rows (m ((c : Thread nD τ).loc main_arg1)) (m ((c : Thread nD τ).loc main_arg3)) :=
    (staged_rows m c).trans (takenRows_eq _ _ hlo hhi)
  have eb : bArr m c = shapeCast S1x16384 (sel (m ((c : Thread nD τ).loc main_arg2)) (m ((c : Thread nD τ).loc main_arg3)))
      shapeCasts_S16384_S1x16384 :=
    (staged_bias m c).trans (by rw [takenBias_eq _ _ hlo hhi])
  rw [ex, ew, eb]
  funext i
  unfold whole Cert.SelectedLogits.logits
  congr 1
  exact row_apply _ (i 1)

end Cert.KernelIdeal.Result

namespace Cert.ReferenceIdeal.RefValue

open Cert.ReferenceIdeal Cert.ReferenceIdeal.Gen Cert.ReferenceIdeal.Read

/-- The reference's two gathers are the gathers at the wrapped index column: the same operations of the same terms. -/
theorem result_eq_logits (x0 : FVec Ideal S2048x1024 .f32) (x1 : FVec Ideal S65536x1024 .f32) (x2 : FVec Ideal S65536 .f32)
    (x3 : IVec S16384 32) :
    val_main_v17 (F := Ideal) x0 x1 x2 x3
      = Cert.SelectedLogits.logits x0 (Cert.KernelIdeal.Result.rows x1 x3) (Cert.KernelIdeal.Result.sel x2 x3) :=
  (result_eq x0 x1 x2 x3).trans rfl

end Cert.ReferenceIdeal.RefValue

namespace Cert.Proof.Claims

/-- The word-level kernel runs and keeps its arguments. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at `logits` of x, the gathered rows and the gathered bias. -/
theorem algebraic : Cert.algebraic_KernelIdeal_ReferenceIdeal := by
  intro m ρ m' ρ' hpre hagree
  refine ⟨fun c => Cert.SelectedLogits.logits (m ((c.tc : Thread Cert.KernelIdeal.nD Cert.KernelIdeal.τ).loc Cert.KernelIdeal.main_arg0))
      (Cert.KernelIdeal.Result.rows (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (Cert.KernelIdeal.Result.sel (m ((c.tc : Thread Cert.KernelIdeal.nD Cert.KernelIdeal.τ).loc Cert.KernelIdeal.main_arg2))
        (m ((c.tc : Thread Cert.KernelIdeal.nD Cert.KernelIdeal.τ).loc Cert.KernelIdeal.main_arg3))), ?_, ?_⟩
  · exact (θ_run Cert.KernelIdeal.defs _ _).mono
      (fun r h c => ⟨(h c).1.trans (Cert.KernelIdeal.Result.whole_eq_logits m c (hpre c)), (h c).2⟩)
      (Cert.KernelIdeal.Blocks.run m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2, Cert.ReferenceIdeal.Read.val_main_v17_eq]
    exact Cert.ReferenceIdeal.RefValue.result_eq_logits _ _ _ _

end Cert.Proof.Claims

end
-- ==== Proof.lean ====
/- The kernel gathers 16384 rows of a [65536, 1024] weight matrix and 16384 bias entries at an index vector, then
   computes x · rowsᵀ + bias over a grid of 32 column blocks; the reference gathers the same rows and entries and forms the
   same product and sum in one step. Both index the way array indexing does (a negative index counts from the end), and
   the kernel's gather additionally replaces an out-of-range row by a fill value where the reference's clamps, so the two
   agree exactly where the indices are in range: every index word in [-65536, 65536), which the precondition states
   beside the finiteness of the float arguments. Under it both results are, at (n, s),
       (∑ k < 1024, x (n, k) · weight (wrap ids s, k)) + bias (wrap ids s)
   on the extended reals (Proof/Claims.lean and the modules it imports). The three programs run and keep their arguments;
   the idealization rewrote no operation. -/
import proofs.«423076_j77068893160002_3_alg».proof.Defs
import proofs.«423076_j77068893160002_3_alg».proof.Proof.Gen.Kernel
import proofs.«423076_j77068893160002_3_alg».proof.Proof.Gen.Kernel.Skeleton
import proofs.«423076_j77068893160002_3_alg».proof.Proof.Gen.Kernel.Launch
import proofs.«423076_j77068893160002_3_alg».proof.Proof.Gen.Kernel.Points
import proofs.«423076_j77068893160002_3_alg».proof.Proof.Gen.Kernel.Frame
import proofs.«423076_j77068893160002_3_alg».proof.Proof.Gen.KernelIdeal
import proofs.«423076_j77068893160002_3_alg».proof.Proof.Gen.KernelIdeal.Skeleton
import proofs.«423076_j77068893160002_3_alg».proof.Proof.Gen.KernelIdeal.Launch
import proofs.«423076_j77068893160002_3_alg».proof.Proof.Gen.KernelIdeal.Points
import proofs.«423076_j77068893160002_3_alg».proof.Proof.Gen.KernelIdeal.Frame
import proofs.«423076_j77068893160002_3_alg».proof.Proof.Gen.ReferenceIdeal
import proofs.«423076_j77068893160002_3_alg».proof.Proof.Gen.Pre_finite_inputs
import proofs.«423076_j77068893160002_3_alg».proof.Proof.Gen.KernelIdeal.Value
import proofs.«423076_j77068893160002_3_alg».proof.Proof.Gen.ReferenceIdeal.Run
import proofs.«423076_j77068893160002_3_alg».proof.Proof.Gen.ReferenceIdeal.Read
import proofs.«423076_j77068893160002_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
